-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x9 : Shape := ⟨2, ![5000000, 9]⟩
abbrev S9 : Shape := ⟨1, ![9]⟩
abbrev S_ : Shape := ⟨0, ![]⟩

class Facts : Prop where
  bcast_S_S5000000x9 : S_.BroadcastsInDim S5000000x9 (![] : Fin 0 → Fin S5000000x9.rank)
  reducesTo_S5000000x9_S_d0_1 : S5000000x9.ReducesTo [0, 1] S_
  h_S_ : 0 < S_.numel
  bcast_S_S9 : S_.BroadcastsInDim S9 (![] : Fin 0 → Fin S9.rank)
  reducesTo_S9_S_d0 : S9.ReducesTo [0] S_

variable [Facts]

def fn_part1 {F : FTy → Type} [FloatOps F] (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  main_v18

def fn {F : FTy → Type} [FloatOps F] (main_arg0 : FVec F S5000000x9 .f32) (main_arg1 : FVec F S5000000x9 .f32) (main_arg2 : FVec F S5000000x9 .f32) (main_arg3 : FVec F S9 .f32) : IVec S_ 1 :=
  let main_v0 : FVec F S5000000x9 .f32 := Host.absf main_arg0
  let main_cst : FVec F S_ .f32 := constant S_ .f32 0x7F800000#32
  let main_v1 : FVec F S5000000x9 .f32 := broadcastInDim S5000000x9 ![] bcast_S_S5000000x9 main_cst
  let main_v2 : IVec S5000000x9 1 := cmpf .olt main_v0 main_v1
  let main_c : IVec S_ 1 := constantI S_ 1 1#1
  let main_v3 : IVec S_ 1 := (fun x v => Host.reduce IntOp.andi x v reducesTo_S5000000x9_S_d0_1 h_S_) main_v2 main_c
  let main_v4 : FVec F S5000000x9 .f32 := Host.absf main_arg1
  let main_cst_0 : FVec F S_ .f32 := constant S_ .f32 0x7F800000#32
  let main_v5 : FVec F S5000000x9 .f32 := broadcastInDim S5000000x9 ![] bcast_S_S5000000x9 main_cst_0
  let main_v6 : IVec S5000000x9 1 := cmpf .olt main_v4 main_v5
  let main_c_1 : IVec S_ 1 := constantI S_ 1 1#1
  let main_v7 : IVec S_ 1 := (fun x v => Host.reduce IntOp.andi x v reducesTo_S5000000x9_S_d0_1 h_S_) main_v6 main_c_1
  let main_v8 : IVec S_ 1 := andi main_v3 main_v7
  let main_v9 : FVec F S5000000x9 .f32 := Host.absf main_arg2
  let main_cst_2 : FVec F S_ .f32 := constant S_ .f32 0x7F800000#32
  let main_v10 : FVec F S5000000x9 .f32 := broadcastInDim S5000000x9 ![] bcast_S_S5000000x9 main_cst_2
  let main_v11 : IVec S5000000x9 1 := cmpf .olt main_v9 main_v10
  let main_c_3 : IVec S_ 1 := constantI S_ 1 1#1
  let main_v12 : IVec S_ 1 := (fun x v => Host.reduce IntOp.andi x v reducesTo_S5000000x9_S_d0_1 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_v13 main_v16
-- ==== Kernel.lean ====
abbrev S5000000x9 : Shape := ⟨2, ![5000000, 9]⟩
abbrev S9 : Shape := ⟨1, ![9]⟩
abbrev S1x9 : Shape := ⟨2, ![1, 9]⟩
abbrev S2x8x128 : Shape := ⟨3, ![2, 8, 128]⟩
abbrev S50000x9 : Shape := ⟨2, ![50000, 9]⟩
abbrev S1x8x128 : Shape := ⟨3, ![1, 8, 128]⟩
abbrev S50000 : Shape := ⟨1, ![50000]⟩
abbrev S50000x1 : Shape := ⟨2, ![50000, 1]⟩
abbrev S1 : Shape := ⟨1, ![1]⟩
abbrev S1x1 : Shape := ⟨2, ![1, 1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S5000000x9, .f32⟩
  | .hbm, ⟨1, _⟩ => ⟨S5000000x9, .f32⟩
  | .hbm, ⟨2, _⟩ => ⟨S5000000x9, .f32⟩
  | .hbm, ⟨3, _⟩ => ⟨S9, .f32⟩
  | .hbm, ⟨4, _⟩ => ⟨S1x9, .f32⟩
  | .hbm, ⟨5, _⟩ => ⟨S2x8x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S50000x9, .f32⟩
  | .local _ .vmem, ⟨1, _⟩ => ⟨S50000x9, .f32⟩
  | .local _ .vmem, ⟨2, _⟩ => ⟨S50000x9, .f32⟩
  | .local _ .vmem, ⟨3, _⟩ => ⟨S50000x9, .f32⟩
  | .local _ .vmem, ⟨4, _⟩ => ⟨S50000x9, .f32⟩
  | .local _ .vmem, ⟨5, _⟩ => ⟨S50000x9, .f32⟩
  | .local _ .vmem, ⟨6, _⟩ => ⟨S1x9, .f32⟩
  | .local _ .vmem, ⟨7, _⟩ => ⟨S1x8x128, .f32⟩
  | .local _ .vmem, ⟨8, _⟩ => ⟨S1x8x128, .f32⟩
  | _, _ => ⟨S5000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S50000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S50000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S9_S1x9 : S9.ShapeCasts S1x9
  inb_S1x8x128_S1x8x128_0_0_0 : ∀ a, (![0, 0, 0] : Fin 3 → Nat) a + S1x8x128.size a ≤ S1x8x128.size a
  h_S1x8x128 : 0 < S1x8x128.numel
  inb_S50000x9_S50000x9_0_0 : ∀ a, (![0, 0] : Fin 2 → Nat) a + S50000x9.size a ≤ S50000x9.size a
  h_S50000x9 : 0 < S50000x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S50000x9 : S1x9.Broadcasts S50000x9
  reduces_S50000x9_S50000 : S50000x9.Reduces [1] S50000
  shapeCasts_S50000_S50000x1 : S50000.ShapeCasts S50000x1
  natLt_1_32 : 1 < 32
  reduces_S50000x1_S1 : S50000x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x9.size a ≤ S5000000x9.size a
  hwx0_0 : ∀ i : grid0.Coords, EltTy.bits .f32 = 32 ∨ (Rect.block (s := S5000000x9) S50000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S50000x9.size a ≤ S5000000x9.size a
  hwx0_1 : ∀ i : grid0.Coords, EltTy.bits .f32 = 32 ∨ (Rect.block (s := S5000000x9) S50000x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S50000x9.size a ≤ S5000000x9.size a
  hwx0_2 : ∀ i : grid0.Coords, EltTy.bits .f32 = 32 ∨ (Rect.block (s := S5000000x9) S50000x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x9.size a ≤ S1x9.size a
  hwx0_3 : ∀ i : grid0.Coords, EltTy.bits .f32 = 32 ∨ (Rect.block (s := S1x9) S1x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S50000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50000x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S5000000x9 : Shape := ⟨2, ![5000000, 9]⟩
abbrev S9 : Shape := ⟨1, ![9]⟩
abbrev S1x9 : Shape := ⟨2, ![1, 9]⟩
abbrev S_ : Shape := ⟨0, ![]⟩
abbrev S5000000 : Shape := ⟨1, ![5000000]⟩

abbrev nBuf : Space → Nat
  | .hbm => 22
  | .vmem => 0
  | .smem => 0
  | _ => 0

abbrev bufTy : (tb : Table) → Fin (tcTables nBuf tb) → BufTy
  | .hbm, ⟨0, _⟩ => ⟨S5000000x9, .f32⟩
  | .hbm, ⟨1, _⟩ => ⟨S5000000x9, .f32⟩
  | .hbm, ⟨2, _⟩ => ⟨S5000000x9, .f32⟩
  | .hbm, ⟨3, _⟩ => ⟨S9, .f32⟩
  | .hbm, ⟨4, _⟩ => ⟨S5000000x9, .f32⟩
  | .hbm, ⟨5, _⟩ => ⟨S1x9, .f32⟩
  | .hbm, ⟨6, _⟩ => ⟨S5000000x9, .f32⟩
  | .hbm, ⟨7, _⟩ => ⟨S5000000x9, .f32⟩
  | .hbm, ⟨8, _⟩ => ⟨S5000000x9, .f32⟩
  | .hbm, ⟨9, _⟩ => ⟨S5000000x9, .i1⟩
  | .hbm, ⟨10, _⟩ => ⟨S5000000x9, .i1⟩
  | .hbm, ⟨11, _⟩ => ⟨S5000000x9, .i32⟩
  | .hbm, ⟨12, _⟩ => ⟨S_, .i32⟩
  | .hbm, ⟨13, _⟩ => ⟨S5000000, .i32⟩
  | .hbm, ⟨14, _⟩ => ⟨S5000000, .f32⟩
  | .hbm, ⟨15, _⟩ => ⟨S_, .f32⟩
  | .hbm, ⟨16, _⟩ => ⟨S5000000, .f32⟩
  | .hbm, ⟨17, _⟩ => ⟨S5000000, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S5000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S1x9_S5000000x9_0_1 : S1x9.BroadcastsInDim S5000000x9 (![0, 1] : Fin 2 → Fin S5000000x9.rank)
  natLt_1_32 : 1 < 32
  reducesTo_S5000000x9_S5000000_d1 : S5000000x9.ReducesTo [1] S5000000
  h_S_ : 0 < S_.numel
  reducesTo_S5000000_S_d0 : S5000000.ReducesTo [0] S_

variable [Facts₀]

class Facts : Prop extends Facts₀ where

variable [Facts]
-- ==== Proof.Cases.lean ====
import proofs.«163572_j18047452577914_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The zero offsets of a whole-block access, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A point that is not the first of its half: the output block's one covering store is the body's result over what the
    block held when the point began. -/
theorem out_B (c : Dev nD) (i : grid0.Coords) (a2 : Memref sig .tc .vmem S50000x9 .f32) (h2 : a2.IsWhole) (a3 : Memref sig .tc .vmem S50000x9 .f32) (h3 : a3.IsWhole) (a4 : Memref sig .tc .vmem S50000x9 .f32) (h4 : a4.IsWhole) (a5 : Memref sig .tc .vmem S1x9 .f32) (h5 : a5.IsWhole) (a6 : Memref sig .tc .vmem S1x8x128 .f32) (h6 : a6.IsWhole) (hc : ¬cond0_0 i)
    (x0 x1 x2 : Vec F S50000x9 .f32) (x3 : Vec F S1x9 .f32) (xo : Vec F S1x8x128 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S50000x9) hz2, View.ld_unit_zero (S := S1x9) hz2, View.ld_unit_zero (S := S1x8x128) hz3]

/-- The first point of a half: the output block is zeroed, read back, and overwritten by the body's result over that zero
    block. -/
theorem out_A (c : Dev nD) (i : grid0.Coords) (a2 : Memref sig .tc .vmem S50000x9 .f32) (h2 : a2.IsWhole) (a3 : Memref sig .tc .vmem S50000x9 .f32) (h3 : a3.IsWhole) (a4 : Memref sig .tc .vmem S50000x9 .f32) (h4 : a4.IsWhole) (a5 : Memref sig .tc .vmem S1x9 .f32) (h5 : a5.IsWhole) (a6 : Memref sig .tc .vmem S1x8x128 .f32) (h6 : a6.IsWhole) (hc : cond0_0 i)
    (x0 x1 x2 : Vec F S50000x9 .f32) (x3 : Vec F S1x9 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread,
    View.ld_unit_zero (S := S50000x9) hz2, View.ld_unit_zero (S := S1x9) hz2, View.ld_unit_zero (S := S1x8x128) hz3]

end Cert.KernelIdeal.Acc

end
-- ==== Proof.Spec.lean ====
import Idealize.ShloMosaic.PureOps.Ideal.Laws
import Idealize.ShloMosaic.Lib.ValueIdx

noncomputable section

open scoped BigOperators
open Idealize.ShloMosaic Idealize.ShloMosaic.ValueIdx

namespace Cert.ObsLoss

/-- A sum over `a * b` consecutive naturals, cut into `a` consecutive runs of `b`. It holds in every additive
    commutative monoid, so on the extended reals it needs no finiteness. -/
theorem sum_range_mul {β : Type*} [AddCommMonoid β] (f : ℕ → β) (b : ℕ) :
    ∀ a : ℕ, ∑ r ∈ Finset.range (a * b), f r = ∑ i ∈ Finset.range a, ∑ j ∈ Finset.range b, f (b * i + j)
  | 0 => by simp
  | a + 1 => by
    rw [Nat.succ_mul, Finset.sum_range_add, sum_range_mul f b a, Finset.sum_range_succ, Nat.mul_comm a b]

/-- A sum over the indices of a vector is the sum over its one coordinate. -/
theorem sum_idx1 {M : Type*} [AddCommMonoid M] {n : ℕ} (f : (⟨1, ![n]⟩ : Shape).Idx → M) :
    ∑ i, f i = ∑ k : Fin n, f (ix1 k) :=
  Fintype.sum_equiv (Equiv.piUnique fun a : Fin 1 => Fin ((![n] : Fin 1 → ℕ) a)) f (fun k => f (ix1 k))
    fun x => congrArg f (eq_ix1 x)

/-- The word every sum here starts from denotes zero; it is kept as the word, the same on both sides. -/
def zero : EReal := Ideal.ofBits .f32 0x00000000#32

theorem zero_eq : zero = 0 := Ideal.ofBits_zero_f32

/-- The divisor both programs end with: the row count, as the word both print. -/
def rowCount : EReal := Ideal.ofBits .f32 0x4A989680#32

/-- One entry's squared normalised residual `((y - p) / n)²` on the extended reals. -/
def sqRes (y p n : EReal) : EReal := Ideal.div (y - p) n * Ideal.div (y - p) n

/-- The number of entries of a row, as an extended real. -/
def nine : EReal := ((9 : ℝ) : EReal)

section
variable (Y P : (⟨2, ![5000000, 9]⟩ : Shape).Idx → EReal) (n : (⟨1, ![9]⟩ : Shape).Idx → EReal)

/-- Row `r`'s mean: its nine squared residuals summed, over nine (zero past the last row, which no sum below reaches). -/
def rowAt (r : ℕ) : EReal :=
  if h : r < 5000000 then Ideal.div (∑ d : Fin 9, sqRes (Y (ix2 ⟨r, h⟩ d)) (P (ix2 ⟨r, h⟩ d)) (n (ix1 d))) nine else 0

/-- The sum of the row means over tile `t`: rows `50000 t … 50000 t + 49999`. -/
def tileAt (t : ℕ) : EReal := ∑ k ∈ Finset.range 50000, rowAt Y P n (50000 * t + k)

/-- The sum of all five million row means. -/
def total : EReal := ∑ r ∈ Finset.range 5000000, rowAt Y P n r

/-- The total is the sum over the two halves of the fifty tile sums of each half. -/
theorem total_eq_tiles : total Y P n = ∑ c ∈ Finset.range 2, ∑ s ∈ Finset.range 50, tileAt Y P n (50 * c + s) := by
  unfold total tileAt
  rw [← sum_range_mul (fun t => ∑ k ∈ Finset.range 50000, rowAt Y P n (50000 * t + k)) 50 2,
    ← sum_range_mul (rowAt Y P n) 50000 (2 * 50)]

end

end Cert.ObsLoss

end
-- ==== Proof.Payload.lean ====
import proofs.«163572_j18047452577914_1_alg».proof.Proof.Gen.KernelIdeal.Skeleton
import proofs.«163572_j18047452577914_1_alg».proof.Proof.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.Acc

open Cert.KernelIdeal Cert.KernelIdeal.Gen Cert.ObsLoss

/-- A lane sum over the nine entries of row `k` of a block. -/
theorem lane_sum (v : FVec Ideal S50000x9 .f32) (k : Fin 50000) :
    multiReduction .add [1] S50000 v 0x00000000#32 Facts₀.reduces_S50000x9_S50000 (.inl rfl) rfl (ix1 k)
      = ∑ d : Fin 9, v (ix2 k d) :=
  (Ideal.multiReduction_add_single v 0x00000000#32 Facts₀.reduces_S50000x9_S50000 (.inl rfl) rfl (ix1 k)).trans
    (Finset.sum_congr rfl fun d _ => congrArg v (funext fun a => Fin.ext (by match a with | ⟨0, _⟩ => rfl | ⟨1, _⟩ => rfl)))

/-- The sum of a column of fifty thousand rows. -/
theorem col_sum (v : FVec Ideal S50000x1 .f32) :
    multiReduction .add [0] S1 v 0x00000000#32 Facts₀.reduces_S50000x1_S1 (.inl rfl) rfl (ix1 (0 : Fin 1))
      = ∑ k : Fin 50000, v (ix2 k (0 : Fin 1)) :=
  (Ideal.multiReduction_add_single v 0x00000000#32 Facts₀.reduces_S50000x1_S1 (.inl rfl) rfl (ix1 (0 : Fin 1))).trans
    (Finset.sum_congr rfl fun d _ => congrArg v (funext fun a => Fin.ext (by match a with | ⟨0, _⟩ => rfl | ⟨1, _⟩ => rfl)))

/-- A vector of rows viewed as a one-column matrix reads row `k` at `(k, 0)`. -/
theorem keepdims_apply {α : Type} (v : S50000.Idx → α) (k : Fin 50000) :
    shapeCast S50000x1 v Facts₀.shapeCasts_S50000_S50000x1 (ix2 k (0 : Fin 1)) = v (ix1 k) :=
  shapeCast_apply v _ _ _ (by rw [Shape.rowMajor_val_one, Shape.rowMajor_val_two]; show k.val = k.val * 1 + 0; omega)

/-- A cast between two shapes of one element reads that element. -/
theorem cast_one {s t : Shape} {α : Type} (v : s.Idx → α) (h : s.ShapeCasts t) (hs : s.numel = 1) (ht : t.numel = 1)
    (j : t.Idx) (k : s.Idx) : shapeCast t v h j = v k :=
  shapeCast_apply v h j k (by have a := (s.rowMajor k).isLt; have b := (t.rowMajor j).isLt; omega)

/-- Every entry counts as valid: on the extended reals no value differs from itself, so the comparison is false, its
    negation one, and the nine ones of a row sum to nine. -/
theorem valid_count (x2 : FVec Ideal S50000x9 .f32) (k : Fin 50000) :
    multiReduction .add [1] S50000 (sitofp (F := Ideal) .f32 (extui 32 (xori (cmpf .one x2 x2) (constantI S50000x9 1 1#1)) Facts₀.natLt_1_32))
      0x00000000#32 Facts₀.reduces_S50000x9_S50000 (.inl rfl) rfl (ix1 k) = nine := by
  rw [lane_sum]
  have e : ∀ d : Fin 9, (sitofp (F := Ideal) .f32 (extui 32 (xori (cmpf .one x2 x2) (constantI S50000x9 1 1#1)) Facts₀.natLt_1_32)) (ix2 k d) = (1 : EReal) := by
    intro d
    simp [sitofp_apply, extui_apply, xori, cmpf_apply, Ideal.cmpf_def, Ideal.cmp, constantI]
    have h1 : (BitVec.setWidth 32 (IntOp.xori 0#1 1#1)).toInt = 1 := by decide
    show (((BitVec.setWidth 32 (IntOp.xori 0#1 1#1)).toInt : ℝ) : EReal) = 1
    rw [h1]; simp
  simp only [e]
  simp [nine]
  norm_cast

/-- The row of norms broadcast down a block reads, at `(k, d)`, norm `d`. -/
theorem norm_row_apply {α : Type} (x3 : S1x9.Idx → α) (k : Fin 50000) (d : Fin 9) :
    broadcastTo S50000x9 (shapeCast S1x9 x3 Facts₀.shapeCasts_S1x9_S1x9) Facts₀.broadcasts_S1x9_S50000x9 (ix2 k d)
      = x3 (ix2 (0 : Fin 1) d) := by
  rw [shapeCast_self]
  exact broadcastTo_apply x3 _ _ _ (fun a => by match a with | ⟨0, _⟩ => rfl | ⟨1, _⟩ => rfl)

/-- One tile's sum of row means, from its two data blocks and the row of norms. -/
def tileOf (x0 x1 : Vec Ideal S50000x9 .f32) (x3 : Vec Ideal S1x9 .f32) : EReal :=
  ∑ k : Fin 50000, Ideal.div (∑ d : Fin 9, sqRes (x0 (ix2 k d)) (x1 (ix2 k d)) (x3 (ix2 (0 : Fin 1) d))) nine

/-- What the body stores: at every index of the output block, the accumulator there plus this tile's sum of row means. -/
theorem pay2_apply (x0 x1 x2 : Vec Ideal S50000x9 .f32) (x3 : Vec Ideal S1x9 .f32) (acc : Vec Ideal S1x8x128 .f32)
    (j : S1x8x128.Idx) : k0_pay2 (F := Ideal) x0 x1 x2 x3 acc j = acc j + tileOf x0 x1 x3 := by
  unfold k0_pay2
  dsimp only
  refine congrArg₂ (· + ·) (congrFun (shapeCast_self _ _) j) ?_
  refine (broadcastTo_apply _ Facts₀.broadcasts_S1x1x1_S1x8x128 j (ix3 (0 : Fin 1) (0 : Fin 1) (0 : Fin 1))
    (fun a => by match a with | ⟨0, _⟩ => rfl | ⟨1, _⟩ => rfl | ⟨2, _⟩ => rfl)).trans ?_
  refine (congrFun (shapeCast_self _ _) _).trans ?_
  refine (cast_one _ _ rfl rfl _ (ix2 (0 : Fin 1) (0 : Fin 1))).trans ?_
  refine (cast_one _ _ rfl rfl _ (ix1 (0 : Fin 1))).trans ?_
  refine (col_sum _).trans ?_
  unfold tileOf
  refine Finset.sum_congr rfl fun k _ => ?_
  refine (divf_apply _ _ _).trans (congrArg₂ Ideal.div ?_ ?_)
  · refine (keepdims_apply _ k).trans ((lane_sum _ k).trans (Finset.sum_congr rfl fun d _ => ?_))
    unfold sqRes
    show Ideal.div (x0 (ix2 k d) - x1 (ix2 k d)) (broadcastTo S50000x9 (shapeCast S1x9 x3 Facts₀.shapeCasts_S1x9_S1x9) Facts₀.broadcasts_S1x9_S50000x9 (ix2 k d))
      * Ideal.div (x0 (ix2 k d) - x1 (ix2 k d)) (broadcastTo S50000x9 (shapeCast S1x9 x3 Facts₀.shapeCasts_S1x9_S1x9) Facts₀.broadcasts_S1x9_S50000x9 (ix2 k d)) = _
    rw [norm_row_apply x3 k d]
  · exact (keepdims_apply _ k).trans (valid_count x2 k)

end Cert.KernelIdeal.Acc

end
-- ==== Proof.KernelValue.lean ====
import proofs.«163572_j18047452577914_1_alg».proof.Proof.Cases
import proofs.«163572_j18047452577914_1_alg».proof.Proof.Payload
import Idealize.ShloMosaic.Lib.StableHlo.Run

noncomputable section

open scoped BigOperators
open Idealize.ShloMosaic Idealize.ShloMosaic.TcCoe Idealize.ShloMosaic.ValueIdx Idealize.SL.Sem
open Idealize.ShloMosaic.Pipeline (Dat)

namespace Cert.KernelIdeal.Acc

open Cert.KernelIdeal Cert.KernelIdeal.Gen Cert.ObsLoss

variable (m : (ℓ : Loc nD τ sig) → Buf (Elt Ideal) ℓ) (ρ : Dev nD → PrngReg)

/-- The three arrays the value depends on, as the region finds them, and the blocks of a grid point, at their literal types. -/
abbrev Yarr (c : Dev nD) : Vec Ideal S5000000x9 .f32 := V m c main_arg0
abbrev Parr (c : Dev nD) : Vec Ideal S5000000x9 .f32 := V m c main_arg1
abbrev Narr (c : Dev nD) : Vec Ideal S9 .f32 := m ((c : Thread nD τ).loc main_arg3)
abbrev yblk (c : Dev nD) (t : Fin cfg0.N) : Vec Ideal S50000x9 .f32 := iblk m c 0 t
abbrev pblk (c : Dev nD) (t : Fin cfg0.N) : Vec Ideal S50000x9 .f32 := iblk m c 1 t
abbrev zblk (c : Dev nD) (t : Fin cfg0.N) : Vec Ideal S50000x9 .f32 := iblk m c 2 t
abbrev nblk (c : Dev nD) (t : Fin cfg0.N) : Vec Ideal S1x9 .f32 := iblk m c 3 t

/-- Where the windows' blocks sit: point `t` of the 2 × 50 grid reads row block `t` of the data arrays (`50·(t / 50) + t % 50`),
    the one block of the norms, and writes block `t / 50` of the result. -/
theorem idx_facts : ∀ t : Fin cfg0.N, win0_0.index t 0 = t.val ∧ win0_0.index t 1 = 0 ∧ win0_1.index t 0 = t.val ∧ win0_1.index t 1 = 0
    ∧ win0_3.index t 0 = 0 ∧ win0_3.index t 1 = 0 ∧ win0_4.index t 0 = t.val / 50 ∧ win0_4.index t 1 = 0 ∧ win0_4.index t 2 = 0 :=
  (by decide +kernel : ∀ t : Fin grid0.N, win0_0.index t 0 = t.val ∧ win0_0.index t 1 = 0 ∧ win0_1.index t 0 = t.val ∧ win0_1.index t 1 = 0
    ∧ win0_3.index t 0 = 0 ∧ win0_3.index t 1 = 0 ∧ win0_4.index t 0 = t.val / 50 ∧ win0_4.index t 1 = 0 ∧ win0_4.index t 2 = 0)

/-- Entry (k, d) of the first data block at point `t` is entry (50000 t + k, d) of its array. -/
theorem yblk_apply (c : Dev nD) (t : Fin cfg0.N) (k : Fin 50000) (d : Fin 9) (h : 50000 * t.val + k.val < 5000000) :
    yblk m c t (ix2 k d) = Yarr m c (ix2 ⟨50000 * t.val + k.val, h⟩ d) := by
  unfold yblk Yarr iblk
  rw [View.read_apply]
  show V m c main_arg0 _ = V m c main_arg0 _
  congr 1
  funext a
  apply Fin.ext
  match a with
  | ⟨0, _⟩ => show win0_0.index t 0 * 50000 + 1 * k.val = 50000 * t.val + k.val; rw [(idx_facts t).1]; omega
  | ⟨1, _⟩ => show win0_0.index t 1 * 9 + 1 * d.val = d.val; rw [(idx_facts t).2.1]; omega

/-- The same for the second data array. -/
theorem pblk_apply (c : Dev nD) (t : Fin cfg0.N) (k : Fin 50000) (d : Fin 9) (h : 50000 * t.val + k.val < 5000000) :
    pblk m c t (ix2 k d) = Parr m c (ix2 ⟨50000 * t.val + k.val, h⟩ d) := by
  unfold pblk Parr iblk
  rw [View.read_apply]
  show V m c main_arg1 _ = V m c main_arg1 _
  congr 1
  funext a
  apply Fin.ext
  match a with
  | ⟨0, _⟩ => show win0_1.index t 0 * 50000 + 1 * k.val = 50000 * t.val + k.val; rw [(idx_facts t).2.2.1]; omega
  | ⟨1, _⟩ => show win0_1.index t 1 * 9 + 1 * d.val = d.val; rw [(idx_facts t).2.2.2.1]; omega

/-- The one block of norms is the norm vector viewed as a row: entry (0, d) is norm d. -/
theorem nblk_apply (c : Dev nD) (t : Fin cfg0.N) (d : Fin 9) :
    nblk m c t (ix2 (0 : Fin 1) d) = Narr m c (ix1 d) := by
  have e : (V m c main_v0 : S1x9.Idx → EReal) = shapeCast S1x9 (m ((c : Thread nD τ).loc main_arg3)) Facts₀.shapeCasts_S9_S1x9 := by
    show StableHlo.after hostOps0 (fun b => m (c, b)) (Proc.devRef .tc main_v0) = _
    after_results
    rfl
  unfold nblk Narr iblk
  rw [View.read_apply]
  show V m c main_v0 (((cfg0.win 3).blk t).view.emb (ix2 (0 : Fin 1) d)) = _
  have hi : (((cfg0.win 3).blk t).view.emb (ix2 (0 : Fin 1) d)) = (ix2 (0 : Fin 1) d : S1x9.Idx) := by
    funext a
    apply Fin.ext
    match a with
    | ⟨0, _⟩ => show win0_3.index t 0 * 1 + 1 * 0 = 0; rw [(idx_facts t).2.2.2.2.1]
    | ⟨1, _⟩ => show win0_3.index t 1 * 9 + 1 * d.val = d.val; rw [(idx_facts t).2.2.2.2.2.1]; omega
  rw [hi, e]
  exact shapeCast_a_1a_apply _ _ 0 d

/-- The tile sum the body computes from the blocks of point `t` is the sum of the row means of rows `50000 t …` of the arrays. -/
theorem tile_eq (c : Dev nD) (t : Fin cfg0.N) :
    tileOf (yblk m c t) (pblk m c t) (nblk m c t) = tileAt (Yarr m c) (Parr m c) (Narr m c) t.val := by
  have hN : t.val < 100 := lt_of_lt_of_eq t.isLt (show cfg0.N = 100 from N_0)
  unfold tileOf tileAt
  rw [Finset.sum_range]
  refine Finset.sum_congr rfl fun k _ => ?_
  have h : 50000 * t.val + k.val < 5000000 := by have := k.isLt; omega
  unfold rowAt
  rw [dif_pos h]
  refine congrArg (Ideal.div · nine) (Finset.sum_congr rfl fun d _ => ?_)
  rw [yblk_apply m c t k d h, pblk_apply m c t k d h, nblk_apply m c t d]

/-- What a reset point leaves: the body's result over the zero block; and what any other point leaves over what it found. -/
abbrev resetAt (c : Dev nD) (n : ℕ) (h : n < cfg0.N) : S1x8x128.Idx → EReal :=
  k0_pay2 (F := Ideal) (yblk m c ⟨n, h⟩) (pblk m c ⟨n, h⟩) (zblk m c ⟨n, h⟩) (nblk m c ⟨n, h⟩) (k0_pay1 (F := Ideal))
abbrev stepAt (c : Dev nD) (n : ℕ) (h : n < cfg0.N) (acc : S1x8x128.Idx → EReal) : S1x8x128.Idx → EReal :=
  k0_pay2 (F := Ideal) (yblk m c ⟨n, h⟩) (pblk m c ⟨n, h⟩) (zblk m c ⟨n, h⟩) (nblk m c ⟨n, h⟩) acc

/-- The staging block after a reset point, and after any other point, as the body's result. -/
theorem outsAt_reset (c : Dev nD) (n : ℕ) (h : n < cfg0.N) (hm : n % 50 = 0) :
    (outsAt0 m c n h : S1x8x128.Idx → EReal) = resetAt m c n h :=
  (outsAt0_A m c ⟨n, h⟩ hm).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hm) (iblk m c 0 ⟨n, h⟩) (iblk m c 1 ⟨n, h⟩) (iblk m c 2 ⟨n, h⟩) (iblk m c 3 ⟨n, h⟩))

theorem outsAt_step (c : Dev nD) (n : ℕ) (h : n + 1 < cfg0.N) (hm : ¬(n + 1) % 50 = 0) :
    (outsAt0 m c (n + 1) h : S1x8x128.Idx → EReal) = stepAt m c (n + 1) h (outsAt0 m c n (Nat.lt_of_succ_lt h)) :=
  (outsAt0_B m c ⟨n + 1, h⟩ hm).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hm ((hcond0_0 ⟨n + 1, h⟩).mp hh)) (iblk m c 0 ⟨n + 1, h⟩) (iblk m c 1 ⟨n + 1, h⟩) (iblk m c 2 ⟨n + 1, h⟩) (iblk m c 3 ⟨n + 1, h⟩)
      (outsAt0 m c n (Nat.lt_of_succ_lt h)))

/-- THE RUNNING SUM. After point `t` the output's staging block holds, at every index, zero plus the tile sums of the
    points of `t`'s run of fifty so far: the accumulation is a fold that resets at the multiples of fifty. -/
theorem outsAt_apply (c : Dev nD) (t : ℕ) (ht : t < cfg0.N) (i : S1x8x128.Idx) :
    outsAt0 m c t ht i
      = zero + ∑ s ∈ Finset.range (t % 50 + 1), tileAt (Yarr m c) (Parr m c) (Narr m c) (50 * (t / 50) + s) := by
  have hN : cfg0.N = 100 := N_0
  have h' : 50 * (t / 50) + t % 50 < cfg0.N := by rw [Nat.div_add_mod]; exact ht
  have hfold := Pipeline.eq_accAt_of_mod (α := S1x8x128.Idx → EReal) (fun n h => outsAt0 m c n h) 50 (resetAt m c) (stepAt m c)
    (outsAt_reset m c) (outsAt_step m c) (by decide) t ht h'
  refine (congrFun hfold i).trans ?_
  exact Pipeline.accAt_add_apply (ι := S1x8x128.Idx) (β := EReal) (resetAt m c) (stepAt m c) (fun _ => zero)
    (fun n _ => tileAt (Yarr m c) (Parr m c) (Narr m c) n) (50 * (t / 50)) 49
    (fun h i => (pay2_apply _ _ _ _ _ i).trans (congrArg (zero + ·) (tile_eq m c ⟨_, h⟩)))
    (fun n h acc i _ _ => (pay2_apply _ _ _ _ acc i).trans (congrArg (acc i + ·) (tile_eq m c ⟨n, h⟩)))
    (t % 50) (by omega) h' i

/-- THE RESULT ARRAY: slot `h` of the two holds, at every one of its 8 × 128 entries, zero plus the fifty tile sums of half `h`. -/
def partials (c : Dev nD) : S2x8x128.Idx → EReal := fun i =>
  zero + ∑ s ∈ Finset.range 50, tileAt (Yarr m c) (Parr m c) (Narr m c) (50 * (i 0).val + s)

/-- The output window's blocks are whole: extents 1 × 8 × 128 at every point. -/
theorem out_extents : ∀ t : Fin cfg0.N, win0_4.xsize (grid0.coords t) 0 = 1 ∧ win0_4.xsize (grid0.coords t) 1 = 8 ∧ win0_4.xsize (grid0.coords t) 2 = 128 :=
  (by decide +kernel : ∀ t : Fin grid0.N, win0_4.xsize (grid0.coords t) 0 = 1 ∧ win0_4.xsize (grid0.coords t) 1 = 8 ∧ win0_4.xsize (grid0.coords t) 2 = 128)

/-- What a write-back writes: at the last point of a half's run the staging block holds that half's fifty tile sums, which
    is the result array read through the half's slot. -/
theorem flushed_eq (c : Dev nD) (t : Fin cfg0.N) (hf : (cfg0.win 4).flush t = true) :
    (dats m 0 c).flushed 4 t = ((cfg0.win 4).blk t).view.read (Elt Ideal) (partials m c) := by
  have hN : cfg0.N = 100 := N_0
  have h49 : t.val % 50 = 49 := (flush0_4 t).mp hf
  show (cfg0.win 4).cut (grid0.coords t) ((dats m 0 c).after 4 t) = _
  rw [after0_4]
  funext y
  rw [View.read_apply]
  show outsAt0 m c t.val t.isLt ((cfg0.win 4).xinj (grid0.coords t) y) = partials m c (((cfg0.win 4).blk t).view.emb y)
  refine (outsAt_apply m c t.val t.isLt _).trans ?_
  unfold partials
  have hy : (y (0 : Fin 3)).val < 1 := lt_of_lt_of_eq (y (0 : Fin 3)).isLt (out_extents t).1
  have he : ((((cfg0.win 4).blk t).view.emb y) (0 : Fin 3)).val = t.val / 50 := by
    show win0_4.index t 0 * 1 + 1 * (y (0 : Fin 3)).val = t.val / 50
    rw [(idx_facts t).2.2.2.2.2.2.1]; omega
  rw [he, h49]

/-- So the result array ends holding the two halves' sums: the last point of each half's run covers that half's slot. -/
theorem final (c : Dev nD) : (dats m 0 c).arrAt 4 cfg0.N = partials m c :=
  (dats m 0 c).arrAt_eq_of_cover 4 (partials m c) (flushed_eq m c) fun i => by
    have hN : grid0.N = 100 := N_0
    have h0 : (i 0 : Nat) < 2 := (i 0).isLt
    have h1 : (i 1 : Nat) < 8 := (i 1).isLt
    have h2 : (i 2 : Nat) < 128 := (i 2).isLt
    have ht : 50 * (i 0 : Nat) + 49 < grid0.N := by omega
    have hd : (50 * (i 0 : Nat) + 49) / 50 = (i 0 : Nat) := by omega
    refine ⟨⟨50 * (i 0 : Nat) + 49, ht⟩, (flush0_4 _).mpr (by show (50 * (i 0 : Nat) + 49) % 50 = 49; omega), ?_⟩
    show i ∈ ((View.whole main_v1).slice (win0_4.rect ⟨50 * (i 0 : Nat) + 49, ht⟩)).set
    rw [View.set_slice_whole, Rect.mem_set_unit]
    intro a
    match a with
    | ⟨0, _⟩ =>
      show win0_4.index ⟨50 * (i 0 : Nat) + 49, ht⟩ 0 * 1 ≤ (i 0 : Nat) ∧ (i 0 : Nat) < win0_4.index ⟨50 * (i 0 : Nat) + 49, ht⟩ 0 * 1 + win0_4.xsize (grid0.coords ⟨50 * (i 0 : Nat) + 49, ht⟩) 0
      rw [(idx_facts ⟨50 * (i 0 : Nat) + 49, ht⟩).2.2.2.2.2.2.1, (out_extents ⟨50 * (i 0 : Nat) + 49, ht⟩).1]
      show (50 * (i 0 : Nat) + 49) / 50 * 1 ≤ (i 0 : Nat) ∧ (i 0 : Nat) < (50 * (i 0 : Nat) + 49) / 50 * 1 + 1
      rw [hd]; omega
    | ⟨1, _⟩ =>
      show win0_4.index ⟨50 * (i 0 : Nat) + 49, ht⟩ 1 * 8 ≤ (i 1 : Nat) ∧ (i 1 : Nat) < win0_4.index ⟨50 * (i 0 : Nat) + 49, ht⟩ 1 * 8 + win0_4.xsize (grid0.coords ⟨50 * (i 0 : Nat) + 49, ht⟩) 1
      rw [(idx_facts ⟨50 * (i 0 : Nat) + 49, ht⟩).2.2.2.2.2.2.2.1, (out_extents ⟨50 * (i 0 : Nat) + 49, ht⟩).2.1]; omega
    | ⟨2, _⟩ =>
      show win0_4.index ⟨50 * (i 0 : Nat) + 49, ht⟩ 2 * 128 ≤ (i 2 : Nat) ∧ (i 2 : Nat) < win0_4.index ⟨50 * (i 0 : Nat) + 49, ht⟩ 2 * 128 + win0_4.xsize (grid0.coords ⟨50 * (i 0 : Nat) + 49, ht⟩) 2
      rw [(idx_facts ⟨50 * (i 0 : Nat) + 49, ht⟩).2.2.2.2.2.2.2.2, (out_extents ⟨50 * (i 0 : Nat) + 49, ht⟩).2.2]; omega

/-- THE KERNEL'S RESULT: entry (h, 0, 0) of each half's slot, the two added from zero, the sum divided by the row count. -/
def result (c : Dev nD) : S_.Idx → EReal :=
  Host.divf (Host.reduceAdd (shapeCast S2 (extractStridedSlice S2x1x1 ![0, 0, 0] (partials m c) Facts₀.slices_S2x8x128_S2x1x1_0_0_0)
      Facts₀.shapeCasts_S2x1x1_S2) (constant (F := Ideal) S_ .f32 0x00000000#32) Facts₀.reducesTo_S2_S_d0 Facts₀.h_S_)
    (constant (F := Ideal) S_ .f32 0x4A989680#32)

/-- The host lines after the region compute `result` from the result array. -/
theorem tail_eq (c : Dev nD) : Pipeline.afterTail₀ cfgs (dats m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v1)
      = partials m c := (Pipeline.withArrays_arr spec0 launch0.win.arr_inj c _ _ 4).trans (final m c)
  rw [hw]
  rfl

/-- THE RUN, READ: every weakly fair execution ends with the result buffer at `result` and the four arguments as launched. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

/-- THE KERNEL'S RESULT IN CLOSED FORM: the two halves' sums are the sum of all row means (the tiles partition the rows),
    so the result is that total over the row count. -/
theorem result_eq (c : Dev nD) (i : S_.Idx) :
    result m c i = Ideal.div (total (Yarr m c) (Parr m c) (Narr m c)) rowCount := by
  unfold result
  refine (Ideal.hostDivf_def ..).trans ?_
  refine congrArg₂ Ideal.div ?_ rfl
  simp only [Host.reduceAdd, Ideal.hostReduceAdd_def]
  rw [Ideal.hostReduceAdd_total Facts₀.reducesTo_S2_S_d0 (fun b => b.elim0), sum_idx1]
  have hs : ∀ k : Fin 2, shapeCast S2 (extractStridedSlice S2x1x1 ![0, 0, 0] (partials m c) Facts₀.slices_S2x8x128_S2x1x1_0_0_0)
        Facts₀.shapeCasts_S2x1x1_S2 (ix1 k)
      = zero + ∑ s ∈ Finset.range 50, tileAt (Yarr m c) (Parr m c) (Narr m c) (50 * k.val + s) := by
    intro k
    refine (shapeCast_apply _ _ _ (ix3 k (0 : Fin 1) (0 : Fin 1))
      (by rw [Shape.rowMajor_val_three, Shape.rowMajor_val_one]; show (k.val * 1 + 0) * 1 + 0 = k.val; omega)).trans ?_
    unfold extractStridedSlice partials
    show zero + ∑ s ∈ Finset.range 50, tileAt _ _ _ (50 * (0 + k.val) + s) = _
    rw [Nat.zero_add]
  simp only [hs]
  have hz : zero = 0 := zero_eq
  show zero + ∑ k : Fin 2, (zero + ∑ s ∈ Finset.range 50, tileAt (Yarr m c) (Parr m c) (Narr m c) (50 * k.val + s)) = _
  simp only [hz, zero_add]
  rw [total_eq_tiles, Finset.sum_range]

end Cert.KernelIdeal.Acc

end
-- ==== Proof.RefValue.lean ====
import proofs.«163572_j18047452577914_1_alg».proof.Proof.Gen.ReferenceIdeal.Read
import proofs.«163572_j18047452577914_1_alg».proof.Proof.Spec
import Idealize.ShloMosaic.PureOps.Ideal.Laws
import Idealize.ShloMosaic.PureOps.Reduce
import Idealize.ShloMosaic.Lib.ValueIdx

noncomputable section

open scoped BigOperators
open Idealize.ShloMosaic Idealize.ShloMosaic.TcCoe Idealize.ShloMosaic.ValueIdx

namespace Cert.ObsLoss.Ref

open Cert.ReferenceIdeal Cert.ReferenceIdeal.Gen Cert.ReferenceIdeal.Read Cert.ObsLoss

variable (x0 x1 x2 : (⟨S5000000x9, .f32⟩ : BufTy).Contents (Elt Ideal)) (x3 : (⟨S9, .f32⟩ : BufTy).Contents (Elt Ideal))

/-- No extended real differs from itself: every entry's validity word is one. -/
theorem valid_word (j : S5000000x9.Idx) : val_main_v7 (F := Ideal) x2 j = 1#32 := by
  rw [val_main_v7_apply, val_main_v6_apply, val_main_v5_apply, Ideal.cmpf_def]
  simp [Ideal.cmp]

/-- So every row's count of valid entries, summed as integers and then converted, is nine. -/
theorem valid_apply (i : S5000000.Idx) : val_main_v9 (F := Ideal) x2 i = nine := by
  rw [val_main_v9_apply]
  have h8 : val_main_v8 (F := Ideal) x2 i = 9#32 := by
    unfold val_main_v8
    rw [Host.reduce_eq_fold_single IntOp.addi _ _ Facts₀.reducesTo_S5000000x9_S5000000_d1 (by decide) Facts₀.h_S_ i]
    have hx : (val_main_v7 (F := Ideal) x2) = fun _ => 1#32 := funext fun j => valid_word x2 j
    rw [hx]
    show (Finset.univ : Finset (Fin 9)).fold IntOp.addi (0#32) (fun _ => 1#32) = 9#32
    decide
  rw [h8]
  have h9 : (9#32 : BitVec 32).toInt = 9 := by decide
  show (((9#32 : BitVec 32).toInt : ℝ) : EReal) = ((9 : ℝ) : EReal)
  rw [h9]
  norm_cast

/-- The reference's mean of row `r` is the specification's. -/
theorem row_apply (r : Fin 5000000) : val_main_v11 (F := Ideal) x0 x1 x2 x3 (ix1 r) = rowAt x0 x1 x3 r.val := by
  rw [val_main_v11_apply, Ideal.hostDivf_def, val_main_v10_apply, valid_apply]
  unfold rowAt
  rw [dif_pos r.isLt]
  refine congrArg (Ideal.div · nine) ?_
  rw [val_main_cst_apply]
  refine (congrArg (· + _) Ideal.ofBits_zero_f32).trans ((zero_add _).trans (Finset.sum_congr rfl fun d _ => ?_))
  rw [val_main_v4_apply, val_main_v3_apply, val_main_v0_apply, val_main_v2_apply, val_main_v1_apply]
  have e1 : idx_main_v10 (ix1 r) d = ix2 (⟨r.val, r.isLt⟩ : Fin 5000000) d :=
    funext fun a => Fin.ext (by match a with | ⟨0, _⟩ => rfl | ⟨1, _⟩ => rfl)
  have e2 : idx_main_v1 (idx_main_v2 (ix2 (⟨r.val, r.isLt⟩ : Fin 5000000) d)) = ix1 d :=
    funext fun a => Fin.ext (by match a with | ⟨0, _⟩ => rfl)
  rw [e1, e2]
  rfl

/-- THE REFERENCE'S RESULT IN CLOSED FORM: the sum of all row means over the row count. -/
theorem result_eq (i : S_.Idx) : val_main_v13 (F := Ideal) x0 x1 x2 x3 i = Ideal.div (total x0 x1 x3) rowCount := by
  rw [val_main_v13_apply, Ideal.hostDivf_def, val_main_v12_apply, val_main_cst_1_apply, val_main_cst_0_apply]
  refine congrArg₂ Ideal.div ?_ rfl
  refine (congrArg (· + _) Ideal.ofBits_zero_f32).trans ((zero_add _).trans ?_)
  unfold total
  rw [sum_idx1, Finset.sum_range]
  exact Finset.sum_congr rfl fun r _ => row_apply x0 x1 x2 x3 r

end Cert.ObsLoss.Ref

end
-- ==== Proof.lean ====
/-
  The kernel and its reference compute one number: the mean, over five million rows, of each row's mean squared
  normalised residual,

      (1 / N) · Σ_r ( Σ_d ((Y r d − P r d) / n d)² ) / 9,

  the inner quotient by the count of entries of the row that are valid. On the extended reals no value differs from
  itself, so both programs' validity tests hold at every entry and both counts are nine: the kernel's as a sum of nine
  ones, the reference's as the integer nine converted.

  The kernel walks a 2 × 50 grid. Point t reads rows 50000·t … 50000·t + 49999, sums their row means, and adds that
  tile sum into an 8 × 128 slot it zeroes at the first point of each half; the slot is written back after the
  half's last point. So slot h ends at zero plus the fifty tile sums of half h (the accumulation read as a fold that
  resets every fifty points), the host adds entry (h, 0, 0) of the two slots from zero and divides by the row count.
  The reference sums all row means at once from zero and divides by the same word.

  The two agree because a sum over 2 · 50 · 50000 consecutive rows is the sum over the halves of the sums over the
  tiles of the sums over a tile's rows — true in every additive commutative monoid, so no finiteness is used and the
  precondition is never opened — and because the zero word denotes zero. The per-entry arithmetic and the final
  divisor are the same terms on both sides and are never evaluated.

  Modules: Spec (the row mean, tile sums and the regrouping law), Cases and Payload (what the body leaves, per control
  case and at an index), KernelValue (the fold, the result array, the host tail, the run), RefValue (the reference's
  stages read at an index).
-/
import proofs.«163572_j18047452577914_1_alg».proof.Defs
import proofs.«163572_j18047452577914_1_alg».proof.Proof.Gen.Kernel
import proofs.«163572_j18047452577914_1_alg».proof.Proof.Gen.Kernel.Skeleton
import proofs.«163572_j18047452577914_1_alg».proof.Proof.Gen.Kernel.Launch
import proofs.«163572_j18047452577914_1_alg».proof.Proof.Gen.Kernel.Points
import proofs.«163572_j18047452577914_1_alg».proof.Proof.Gen.Kernel.Frame
import proofs.«163572_j18047452577914_1_alg».proof.Proof.Gen.KernelIdeal
import proofs.«163572_j18047452577914_1_alg».proof.Proof.Gen.KernelIdeal.Skeleton
import proofs.«163572_j18047452577914_1_alg».proof.Proof.Gen.KernelIdeal.Launch
import proofs.«163572_j18047452577914_1_alg».proof.Proof.Gen.KernelIdeal.Points
import proofs.«163572_j18047452577914_1_alg».proof.Proof.Gen.KernelIdeal.Frame
import proofs.«163572_j18047452577914_1_alg».proof.Proof.Gen.ReferenceIdeal
import proofs.«163572_j18047452577914_1_alg».proof.Proof.Gen.ReferenceIdeal.Run
import proofs.«163572_j18047452577914_1_alg».proof.Proof.Gen.ReferenceIdeal.Read
import proofs.«163572_j18047452577914_1_alg».proof.Proof.Gen.Pre_finite_inputs
import proofs.«163572_j18047452577914_1_alg».proof.Proof.KernelValue
import proofs.«163572_j18047452577914_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the total of the row means over the row count, of arguments that agree. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  funext i
  rw [Cert.ObsLoss.Ref.result_eq]
  refine Eq.trans ?_ (Cert.KernelIdeal.Acc.result_eq m c i).symm
  rw [(hagree c).1, (hagree c).2.1, (hagree c).2.2.2]
  show _ = Ideal.div (Cert.ObsLoss.total (Cert.KernelIdeal.Gen.V m c Cert.KernelIdeal.main_arg0)
    (Cert.KernelIdeal.Gen.V m c Cert.KernelIdeal.main_arg1) (m ((c.tc : Thread Cert.KernelIdeal.nD Cert.KernelIdeal.τ).loc Cert.KernelIdeal.main_arg3))) Cert.ObsLoss.rowCount
  rw [Cert.KernelIdeal.Gen.V_main_arg0, Cert.KernelIdeal.Gen.V_main_arg1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
